-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S40 .f32) (main_arg5 : IVec S1600000 32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg5 main_v24
  let main_c_9 : IVec S_ 32 := constantI S_ 32 100000#32
  let main_v26 : IVec S1600000 32 := broadcastInDim S1600000 ![] bcast_S_S1600000 main_c_9
  let main_v27 : IVec S1600000 1 := cmpi .slt main_arg5 main_v26
  let main_v28 : IVec S1600000 1 := andi main_v25 main_v27
  let main_c_10 : IVec S_ 1 := constantI S_ 1 1#1
  let main_v29 : IVec S_ 1 := (fun x v => Host.reduce IntOp.andi x v reducesTo_S1600000_S_d0 h_S_) main_v28 main_c_10
  let main_v30 : IVec S_ 1 := andi main_v23 main_v29
  main_v30

def fn {F : FTy → Type} [FloatOps F] (main_arg0 : FVec F S100000x128 .f32) (main_arg1 : FVec F S128x128 .f32) (main_arg2 : FVec F S128 .f32) (main_arg3 : FVec F S128x40 .f32) (main_arg4 : FVec F S40 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 95
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x128, .f32⟩
  | .hbm, ⟨52, _⟩ => ⟨S1600000x128, .i1⟩
  | .hbm, ⟨53, _⟩ => ⟨S_, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S1x128, .f32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1, .i32⟩
  | .hbm, ⟨74, _⟩ => ⟨S_, .i32⟩
  | .hbm, ⟨75, _⟩ => ⟨S1600000x1, .i32⟩
  | .hbm, ⟨76, _⟩ => ⟨S1600000x1, .i1⟩
  | .hbm, ⟨77, _⟩ => ⟨S1x1, .i32⟩
  | .hbm, ⟨78, _⟩ => ⟨S1600000x1, .i32⟩
  | .hbm, ⟨79, _⟩ => ⟨S1600000x1, .i1⟩
  | .hbm, ⟨80, _⟩ => ⟨S1600000x1, .i1⟩
  | .hbm, ⟨81, _⟩ => ⟨S_, .i1⟩
  | .hbm, ⟨82, _⟩ => ⟨S1600000, .i1⟩
  | .hbm, ⟨83, _⟩ => ⟨S1600000x128, .f32⟩
  | .hbm, ⟨84, _⟩ => ⟨S1600000x128, .i1⟩
  | .hbm, ⟨85, _⟩ => ⟨S_, .f32⟩
  | .hbm, ⟨86, _⟩ => ⟨S1600000x128, .f32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x1, .f32⟩
  | .hbm, ⟨93, _⟩ => ⟨S1x40, .f32⟩
  | .hbm, ⟨94, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v15 : Ref sig .tc := ⟨.hbm, 55, rfl⟩
abbrev main_cst_6 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v24 : Ref sig .tc := ⟨.hbm, 87, rfl⟩
abbrev main_cst_7 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40.size a ≤ S128x40.size a
  hwx3_2 : ∀ i : grid3.Coords, EltTy.bits .f32 = 32 ∨ (Rect.block (s := S128x40) S128x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x40, .f32⟩
  | .hbm, ⟨77, _⟩ => ⟨S1x40, .f32⟩
  | .hbm, ⟨78, _⟩ => ⟨S100000x40, .f32⟩
  | .hbm, ⟨79, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.HostChain.lean ====
/-
  The host side of the kernel program, read as values. Between its four regions the program computes, on
  the host: the two degree normalisations (the count of edges leaving, and entering, each node, clipped
  below at one, to the power -1/2); twice, the gather of feature rows at the source indices (negative
  indices wrapped by the number of nodes, an out-of-range row filled with a fixed word) followed by the
  scatter-add of the gathered rows into the rows named by the destination indices; and the reshapes that
  turn a length-n vector into a one-column or one-row array for a region's window. Each lemma below says
  what a stretch of host operations leaves in one buffer, as those operations applied to what the buffers
  held when the stretch was entered. Everything is stated for an arbitrary float instance, where the
  float operations are opaque, so that two spellings of one term are compared without being computed;
  the one integer reduction is kept folded for the same reason. The gather's 23 operations are read in
  three pieces: the wrapped indices, the in-range mask over them, the masked gather.
-/
import proofs.«419107_j19997367730786_1_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-! ## The host computations as functions -/

/-- The degree normalisation of an index array: the number of edges at each node, at least one, to the power -1/2. -/
def degNorm (idx : IVec S1600000 32) : FVec F S100000 .f32 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32))))
    (broadcastInDim S100000 ![] bcast_S_S100000 (constant S_ .f32 0xBF000000#32))

/-- The gather's start indices: a negative index has the number of nodes added. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Which start indices lie in 0 … 99999. -/
def maskOf (idx : IVec S1600000x1 32) : IVec S1600000 1 :=
  Host.reduce IntOp.andi
    (andi (cmpi .sge idx (broadcastInDim S1600000x1 ![] bcast_S_S1600000x1 (constantI S_ 32 0#32)))
      (cmpi .sle idx
        (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows of `h` at the wrapped indices; a row whose index is out of range is filled with a fixed word. -/
def takeRows (h : FVec F S100000x128 .f32) (src : IVec S1600000 32) : FVec F S1600000x128 .f32 :=
  select (broadcastInDim S1600000x128 ![0] bcast_S1600000_S1600000x128_0 (maskOf (wrapIdx src)))
    (Host.gather gather_S100000x128_S1600000x1_S1600000x128_1_0_n_n_0_1_1128 h (wrapIdx src))
    (broadcastInDim S1600000x128 ![] bcast_S_S1600000x128 (constant S_ .f32 0x7FC00000#32))

/-- The taken rows added into the rows the destination indices name, from zero. -/
def aggregate (h : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) (takeRows h src)

attribute [local irreducible] Host.reduce

/-! ## Before region 0: from the launch memory -/

section Launch

variable (m : (ℓ : Loc nD τ sig) → Buf (Elt F) ℓ) (ρ : Dev nD → PrngReg) (c : Dev nD)

theorem srcNorm_at5 : W5 m ρ c (Proc.devRef .tc main_v10) = degNorm (F := F) (m ((c.tc : Thread nD τ).loc main_arg5)) := by
  dsimp only [W5, W4, W3, W2, W1, hostOps0, hostOps0_1, hostOps0_2, hostOps0_3, hostOps0_4]
  after_results
  unfold degNorm
  rfl

theorem dstNorm_at5 : W5 m ρ c (Proc.devRef .tc main_v12) = degNorm (F := F) (m ((c.tc : Thread nD τ).loc main_arg6)) := by
  dsimp only [W5, W4, W3, W2, W1, hostOps0, hostOps0_1, hostOps0_2, hostOps0_3, hostOps0_4]
  after_results
  unfold degNorm
  rfl

theorem srcCol_at5 : W5 m ρ c (Proc.devRef .tc main_v13)
    = shapeCast S100000x1 (degNorm (F := F) (m ((c.tc : Thread nD τ).loc main_arg5))) shapeCasts_S100000_S100000x1 := by
  dsimp only [W5, W4, W3, W2, W1, hostOps0, hostOps0_1, hostOps0_2, hostOps0_3, hostOps0_4]
  after_results
  unfold degNorm
  rfl

/-- No host operation before region 0 writes an argument. -/
theorem args_at5 : W5 m ρ c (Proc.devRef .tc main_arg0) = m ((c.tc : Thread nD τ).loc main_arg0)
    ∧ W5 m ρ c (Proc.devRef .tc main_arg1) = m ((c.tc : Thread nD τ).loc main_arg1)
    ∧ W5 m ρ c (Proc.devRef .tc main_arg2) = m ((c.tc : Thread nD τ).loc main_arg2)
    ∧ W5 m ρ c (Proc.devRef .tc main_arg3) = m ((c.tc : Thread nD τ).loc main_arg3)
    ∧ W5 m ρ c (Proc.devRef .tc main_arg4) = m ((c.tc : Thread nD τ).loc main_arg4)
    ∧ W5 m ρ c (Proc.devRef .tc main_arg5) = m ((c.tc : Thread nD τ).loc main_arg5)
    ∧ W5 m ρ c (Proc.devRef .tc main_arg6) = m ((c.tc : Thread nD τ).loc main_arg6) := by
  dsimp only [W5, W4, W3, W2, W1, hostOps0, hostOps0_1, hostOps0_2, hostOps0_3, hostOps0_4]
  refine ⟨?_, ?_, ?_, ?_, ?_, ?_, ?_⟩ <;> after_results

end Launch

variable (W : Valuation τ sig (Elt F))

/-! ## The first gather (between regions 0 and 1), in three pieces -/

theorem take1_split : StableHlo.after hostOps1 W
    = StableHlo.after (hostOps1.drop 18) (StableHlo.after ((hostOps1.drop 8).take 10) (StableHlo.after (hostOps1.take 8) W)) := rfl

theorem take1_idx : StableHlo.after (hostOps1.take 8) W (Proc.devRef .tc main_call2_v5) = wrapIdx (W (Proc.devRef .tc main_arg5)) := by
  dsimp only [hostOps1, List.take]
  after_results
  unfold wrapIdx
  rfl

theorem take1_idx_keeps : StableHlo.after (hostOps1.take 8) W (Proc.devRef .tc main_v14) = W (Proc.devRef .tc main_v14) := by
  dsimp only [hostOps1, List.take]
  after_results

theorem take1_mask : StableHlo.after ((hostOps1.drop 8).take 10) W (Proc.devRef .tc main_call2_v12)
    = maskOf (W (Proc.devRef .tc main_call2_v5)) := by
  dsimp only [hostOps1, List.drop, List.take]
  after_results
  unfold maskOf
  rfl

theorem take1_mask_keeps : StableHlo.after ((hostOps1.drop 8).take 10) W (Proc.devRef .tc main_call2_v5) = W (Proc.devRef .tc main_call2_v5)
    ∧ StableHlo.after ((hostOps1.drop 8).take 10) W (Proc.devRef .tc main_v14) = W (Proc.devRef .tc main_v14) := by
  dsimp only [hostOps1, List.drop, List.take]
  constructor <;> after_results

theorem take1_select : StableHlo.after (hostOps1.drop 18) W (Proc.devRef .tc main_v15)
    = select (broadcastInDim S1600000x128 ![0] bcast_S1600000_S1600000x128_0 (W (Proc.devRef .tc main_call2_v12)))
        (Host.gather gather_S100000x128_S1600000x1_S1600000x128_1_0_n_n_0_1_1128 (W (Proc.devRef .tc main_v14)) (W (Proc.devRef .tc main_call2_v5)))
        (broadcastInDim S1600000x128 ![] bcast_S_S1600000x128 (constant (F := F) S_ .f32 0x7FC00000#32)) := by
  dsimp only [hostOps1, List.drop]
  after_results
  rfl

/-- The first gather, whole. -/
theorem take1 : StableHlo.after hostOps1 W (Proc.devRef .tc main_v15)
    = takeRows (F := F) (W (Proc.devRef .tc main_v14)) (W (Proc.devRef .tc main_arg5)) := by
  rw [take1_split, take1_select, take1_mask, (take1_mask_keeps _).1, (take1_mask_keeps _).2, take1_idx, take1_idx_keeps]
  rfl

/-- What the first gather's operations leave alone. -/
theorem take1_keeps : StableHlo.after hostOps1 W (Proc.devRef .tc main_arg6) = W (Proc.devRef .tc main_arg6)
    ∧ StableHlo.after hostOps1 W (Proc.devRef .tc main_v12) = W (Proc.devRef .tc main_v12)
    ∧ StableHlo.after hostOps1 W (Proc.devRef .tc main_arg2) = W (Proc.devRef .tc main_arg2)
    ∧ StableHlo.after hostOps1 W (Proc.devRef .tc main_arg1) = W (Proc.devRef .tc main_arg1)
    ∧ StableHlo.after hostOps1 W (Proc.devRef .tc main_v10) = W (Proc.devRef .tc main_v10)
    ∧ StableHlo.after hostOps1 W (Proc.devRef .tc main_arg3) = W (Proc.devRef .tc main_arg3)
    ∧ StableHlo.after hostOps1 W (Proc.devRef .tc main_arg4) = W (Proc.devRef .tc main_arg4)
    ∧ StableHlo.after hostOps1 W (Proc.devRef .tc main_arg5) = W (Proc.devRef .tc main_arg5) := by
  dsimp only [hostOps1]
  refine ⟨?_, ?_, ?_, ?_, ?_, ?_, ?_, ?_⟩ <;> after_results

/-! ## The first scatter-add and the reshapes for region 1 -/

theorem sum1 : StableHlo.after hostOps1_1 W (Proc.devRef .tc main_v18)
    = Host.scatterAdd scatter_S100000x128_S1600000x1_S1600000x128_1_0_0_1
        (broadcastInDim S100000x128 ![] bcast_S_S100000x128 (constant (F := F) S_ .f32 0x00000000#32))
        (broadcastInDim S1600000x1 ![0] bcast_S1600000_S1600000x1_0 (W (Proc.devRef .tc main_arg6)))
        (W (Proc.devRef .tc main_v15)) := by
  dsimp only [hostOps1_1]
  after_results

theorem reshapes1 : StableHlo.after hostOps1_1 W (Proc.devRef .tc main_v19)
      = shapeCast S100000x1 (W (Proc.devRef .tc main_v12)) shapeCasts_S100000_S100000x1
    ∧ StableHlo.after hostOps1_1 W (Proc.devRef .tc main_v20)
      = shapeCast S1x128 (W (Proc.devRef .tc main_arg2)) shapeCasts_S128_S1x128 := by
  dsimp only [hostOps1_1]
  constructor <;> (after_results; rfl)

theorem sum1_keeps : StableHlo.after hostOps1_1 W (Proc.devRef .tc main_arg1) = W (Proc.devRef .tc main_arg1)
    ∧ StableHlo.after hostOps1_1 W (Proc.devRef .tc main_v10) = W (Proc.devRef .tc main_v10)
    ∧ StableHlo.after hostOps1_1 W (Proc.devRef .tc main_v12) = W (Proc.devRef .tc main_v12)
    ∧ StableHlo.after hostOps1_1 W (Proc.devRef .tc main_arg3) = W (Proc.devRef .tc main_arg3)
    ∧ StableHlo.after hostOps1_1 W (Proc.devRef .tc main_arg4) = W (Proc.devRef .tc main_arg4)
    ∧ StableHlo.after hostOps1_1 W (Proc.devRef .tc main_arg5) = W (Proc.devRef .tc main_arg5)
    ∧ StableHlo.after hostOps1_1 W (Proc.devRef .tc main_arg6) = W (Proc.devRef .tc main_arg6) := by
  dsimp only [hostOps1_1]
  refine ⟨?_, ?_, ?_, ?_, ?_, ?_, ?_⟩ <;> after_results

/-- The first aggregation: the two stretches between regions 0 and 1, entered at `W`. -/
theorem aggregate1 : StableHlo.after hostOps1_1 (StableHlo.after hostOps1 W) (Proc.devRef .tc main_v18)
    = aggregate (F := F) (W (Proc.devRef .tc main_v14)) (W (Proc.devRef .tc main_arg5)) (W (Proc.devRef .tc main_arg6)) := by
  rw [sum1, take1, (take1_keeps W).1]
  rfl

/-! ## The reshape for region 2 -/

theorem reshape2 : StableHlo.after hostOps2 W (Proc.devRef .tc main_v22)
    = shapeCast S100000x1 (W (Proc.devRef .tc main_v10)) shapeCasts_S100000_S100000x1 := by
  dsimp only [hostOps2]
  after_results
  rfl

theorem reshape2_keeps : StableHlo.after hostOps2 W (Proc.devRef .tc main_v21) = W (Proc.devRef .tc main_v21)
    ∧ StableHlo.after hostOps2 W (Proc.devRef .tc main_v12) = W (Proc.devRef .tc main_v12)
    ∧ StableHlo.after hostOps2 W (Proc.devRef .tc main_arg3) = W (Proc.devRef .tc main_arg3)
    ∧ StableHlo.after hostOps2 W (Proc.devRef .tc main_arg4) = W (Proc.devRef .tc main_arg4)
    ∧ StableHlo.after hostOps2 W (Proc.devRef .tc main_arg5) = W (Proc.devRef .tc main_arg5)
    ∧ StableHlo.after hostOps2 W (Proc.devRef .tc main_arg6) = W (Proc.devRef .tc main_arg6) := by
  dsimp only [hostOps2]
  refine ⟨?_, ?_, ?_, ?_, ?_, ?_⟩ <;> after_results

/-! ## The second gather (between regions 2 and 3), in three pieces -/

theorem take3_split : StableHlo.after hostOps3 W
    = StableHlo.after (hostOps3.drop 18) (StableHlo.after ((hostOps3.drop 8).take 10) (StableHlo.after (hostOps3.take 8) W)) := rfl

theorem take3_idx : StableHlo.after (hostOps3.take 8) W (Proc.devRef .tc main_call3_v5) = wrapIdx (W (Proc.devRef .tc main_arg5)) := by
  dsimp only [hostOps3, List.take]
  after_results
  unfold wrapIdx
  rfl

theorem take3_idx_keeps : StableHlo.after (hostOps3.take 8) W (Proc.devRef .tc main_v23) = W (Proc.devRef .tc main_v23) := by
  dsimp only [hostOps3, List.take]
  after_results

theorem take3_mask : StableHlo.after ((hostOps3.drop 8).take 10) W (Proc.devRef .tc main_call3_v12)
    = maskOf (W (Proc.devRef .tc main_call3_v5)) := by
  dsimp only [hostOps3, List.drop, List.take]
  after_results
  unfold maskOf
  rfl

theorem take3_mask_keeps : StableHlo.after ((hostOps3.drop 8).take 10) W (Proc.devRef .tc main_call3_v5) = W (Proc.devRef .tc main_call3_v5)
    ∧ StableHlo.after ((hostOps3.drop 8).take 10) W (Proc.devRef .tc main_v23) = W (Proc.devRef .tc main_v23) := by
  dsimp only [hostOps3, List.drop, List.take]
  constructor <;> after_results

theorem take3_select : StableHlo.after (hostOps3.drop 18) W (Proc.devRef .tc main_v24)
    = select (broadcastInDim S1600000x128 ![0] bcast_S1600000_S1600000x128_0 (W (Proc.devRef .tc main_call3_v12)))
        (Host.gather gather_S100000x128_S1600000x1_S1600000x128_1_0_n_n_0_1_1128 (W (Proc.devRef .tc main_v23)) (W (Proc.devRef .tc main_call3_v5)))
        (broadcastInDim S1600000x128 ![] bcast_S_S1600000x128 (constant (F := F) S_ .f32 0x7FC00000#32)) := by
  dsimp only [hostOps3, List.drop]
  after_results
  rfl

/-- The second gather, whole. -/
theorem take3 : StableHlo.after hostOps3 W (Proc.devRef .tc main_v24)
    = takeRows (F := F) (W (Proc.devRef .tc main_v23)) (W (Proc.devRef .tc main_arg5)) := by
  rw [take3_split, take3_select, take3_mask, (take3_mask_keeps _).1, (take3_mask_keeps _).2, take3_idx, take3_idx_keeps]
  rfl

/-- What the second gather's operations leave alone. -/
theorem take3_keeps : StableHlo.after hostOps3 W (Proc.devRef .tc main_arg6) = W (Proc.devRef .tc main_arg6)
    ∧ StableHlo.after hostOps3 W (Proc.devRef .tc main_v12) = W (Proc.devRef .tc main_v12)
    ∧ StableHlo.after hostOps3 W (Proc.devRef .tc main_arg4) = W (Proc.devRef .tc main_arg4)
    ∧ StableHlo.after hostOps3 W (Proc.devRef .tc main_arg3) = W (Proc.devRef .tc main_arg3) := by
  dsimp only [hostOps3]
  refine ⟨?_, ?_, ?_, ?_⟩ <;> after_results

/-! ## The second scatter-add and the reshapes for region 3 -/

theorem sum3 : StableHlo.after hostOps3_1 W (Proc.devRef .tc main_v27)
    = Host.scatterAdd scatter_S100000x128_S1600000x1_S1600000x128_1_0_0_1
        (broadcastInDim S100000x128 ![] bcast_S_S100000x128 (constant (F := F) S_ .f32 0x00000000#32))
        (broadcastInDim S1600000x1 ![0] bcast_S1600000_S1600000x1_0 (W (Proc.devRef .tc main_arg6)))
        (W (Proc.devRef .tc main_v24)) := by
  dsimp only [hostOps3_1]
  after_results

theorem reshapes3 : StableHlo.after hostOps3_1 W (Proc.devRef .tc main_v28)
      = shapeCast S100000x1 (W (Proc.devRef .tc main_v12)) shapeCasts_S100000_S100000x1
    ∧ StableHlo.after hostOps3_1 W (Proc.devRef .tc main_v29)
      = shapeCast S1x40 (W (Proc.devRef .tc main_arg4)) shapeCasts_S40_S1x40 := by
  dsimp only [hostOps3_1]
  constructor <;> (after_results; rfl)

theorem sum3_keeps : StableHlo.after hostOps3_1 W (Proc.devRef .tc main_arg3) = W (Proc.devRef .tc main_arg3) := by
  dsimp only [hostOps3_1]
  after_results

/-- The second aggregation: the two stretches between regions 2 and 3, entered at `W`. -/
theorem aggregate3 : StableHlo.after hostOps3_1 (StableHlo.after hostOps3 W) (Proc.devRef .tc main_v27)
    = aggregate (F := F) (W (Proc.devRef .tc main_v23)) (W (Proc.devRef .tc main_arg5)) (W (Proc.devRef .tc main_arg6)) := by
  rw [sum3, take3, (take3_keeps W).1]
  rfl

end Cert.KernelIdeal.HostValue

end
-- ==== Proof.ScaleRegion0.lean ====
/-
  Region 0 of the kernel program scales every row of a [100000, 128] array by that row's entry of a
  one-column array: the body multiplies the 5000-row block of the first window by the broadcast of
  the block of the second. Here the array the region leaves is read as ONE function of the two arrays
  the region finds: entry (r, j) of the result is entry (r, j) of the first times entry (r, 0) of the
  second. The 20 blocks of 5000 rows tile the rows, so the function describes the whole result.
-/
import proofs.«419107_j19997367730786_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The index of row `i 0` in a one-column array of 100000 rows. -/
abbrev colOf (i : S100000x128.Idx) : S100000x1.Idx := fun a => match a with
  | ⟨0, _⟩ => ⟨(i 0).val, (i 0).isLt⟩
  | ⟨1, _⟩ => ⟨0, Nat.one_pos⟩

/-- The same inside a block of 5000 rows. -/
abbrev colOfBlock (j : S5000x128.Idx) : S5000x1.Idx := fun a => match a with
  | ⟨0, _⟩ => ⟨(j 0).val, (j 0).isLt⟩
  | ⟨1, _⟩ => ⟨0, Nat.one_pos⟩

/-- Every row of `a0` multiplied by that row's entry of the one-column array `a1`. -/
def rowScaled (a0 : S100000x128.Idx → EReal) (a1 : S100000x1.Idx → EReal) : S100000x128.Idx → EReal :=
  fun i => a0 i * a1 (colOf i)

/-- The column block broadcast along the lanes, read at an index: the row's entry. -/
theorem lanes_of_column (x1 : S5000x1.Idx → EReal) (h : S5000x1.Broadcasts S5000x128) (j : S5000x128.Idx) :
    broadcastTo S5000x128 x1 h j = x1 (colOfBlock j) :=
  broadcastTo_apply x1 h j (colOfBlock j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- The body's product at an index of the block. -/
theorem pay0_apply (x0 : Vec Ideal S5000x128 .f32) (x1 : Vec Ideal S5000x1 .f32) (j : S5000x128.Idx) :
    k0_pay1 x0 x1 j = x0 j * x1 (colOfBlock j) := by
  unfold k0_pay1
  show x0 j * broadcastTo S5000x128 (shapeCast S5000x1 x1 shapeCasts_S5000x1_S5000x1) broadcasts_S5000x1_S5000x128 j = _
  rw [shapeCast_self, lanes_of_column]

/-- The three windows move together: at point `t` each holds block `t` of the rows. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row-scaled array. -/
theorem flushed0 (c : Dev nD) (t : Fin cfg0.N) :
    (dat0 V c).flushed 2 t = ((cfg0.win 2).blk t).view.read (Elt Ideal) (rowScaled (V c main_arg0) (V c main_v13)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S5000x1) zero_offsets]
  obtain ⟨e0, e1, e2, e3, e4, e5⟩ := idx_facts0 t
  funext j
  refine (pay0_apply _ _ j).trans ?_
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (colOfBlock j) = colOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  have key : ∀ (A0 : S100000x128.Idx → EReal) (A1 : S100000x1.Idx → EReal),
      A0 (((cfg0.win 0).blk t).view.emb j) * A1 (((cfg0.win 1).blk t).view.emb (colOfBlock j))
        = rowScaled A0 A1 (((cfg0.win 2).blk t).view.emb j) := by
    intro A0 A1; unfold rowScaled; rw [h0, h1]
  exact key (V c main_arg0) (V c main_v13)

/-- An index of the result lies in point `t`'s block iff each coordinate lies in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Row `r` lies in the block of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array region 0 leaves: the rows of the first array it finds, each scaled by the second's entry. -/
theorem region0_value (c : Dev nD) :
    (dat0 V c).arrAt 2 cfg0.N = rowScaled (V c main_arg0) (V c main_v13) :=
  (dat0 V c).arrAt_eq_of_cover 2 (rowScaled (V c main_arg0) (V c main_v13)) (fun t _ => flushed0 V c t) cover0

end Cert.KernelIdeal.RegionValue

end
-- ==== Proof.ScaleRegion2.lean ====
/-
  Region 2 of the kernel program scales the rows of the hidden features before the second aggregation:
  the same body as region 0 over other arrays. Entry (r, j) of the array it leaves is entry (r, j) of the
  first array it finds times entry (r, 0) of the one-column array; the 20 blocks of 5000 rows tile the rows.
-/
import proofs.«419107_j19997367730786_1_alg».proof.Proof.ScaleRegion0

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The body's product at an index of the block. -/
theorem pay2_apply (x0 : Vec Ideal S5000x128 .f32) (x2 : Vec Ideal S5000x1 .f32) (j : S5000x128.Idx) :
    k2_pay1 x0 x2 j = x0 j * x2 (colOfBlock j) := by
  unfold k2_pay1
  show shapeCast S5000x128 x0 shapeCasts_S5000x128_S5000x128 j
    * broadcastTo S5000x128 (shapeCast S5000x1 x2 shapeCasts_S5000x1_S5000x1) broadcasts_S5000x1_S5000x128 j = _
  rw [shapeCast_self, shapeCast_self, lanes_of_column]

/-- The three windows move together: at point `t` each holds block `t` of the rows. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-scaled array. -/
theorem flushed2 (c : Dev nD) (t : Fin cfg2.N) :
    (dat2 V c).flushed 2 t = ((cfg2.win 2).blk t).view.read (Elt Ideal) (rowScaled (V c main_v21) (V c main_v22)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S5000x1) zero_offsets]
  obtain ⟨e0, e1, e2, e3, e4, e5⟩ := idx_facts2 t
  funext j
  refine (pay2_apply _ _ j).trans ?_
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb (colOfBlock j) = colOf (((cfg2.win 2).blk t).view.emb j) := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 1 + 1 * 0 = 0; omega
  have key : ∀ (A0 : S100000x128.Idx → EReal) (A1 : S100000x1.Idx → EReal),
      A0 (((cfg2.win 0).blk t).view.emb j) * A1 (((cfg2.win 1).blk t).view.emb (colOfBlock j))
        = rowScaled A0 A1 (((cfg2.win 2).blk t).view.emb j) := by
    intro A0 A1; unfold rowScaled; rw [h0, h1]
  exact key (V c main_v21) (V c main_v22)

/-- An index of the result lies in point `t`'s block iff each coordinate lies in the block's range. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v23).slice (win2_2.rect t)).set ↔ _
  rw [View.set_slice_whole, Rect.mem_set_unit]
  exact Iff.rfl

/-- Row `r` lies in the block of point `r / 5000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array region 2 leaves: the rows of the first array it finds, each scaled by the second's entry. -/
theorem region2_value (c : Dev nD) :
    (dat2 V c).arrAt 2 cfg2.N = rowScaled (V c main_v21) (V c main_v22) :=
  (dat2 V c).arrAt_eq_of_cover 2 (rowScaled (V c main_v21) (V c main_v22)) (fun t _ => flushed2 V c t) cover2

end Cert.KernelIdeal.RegionValue

end
-- ==== Proof.LinearRegion1.lean ====
/-
  Region 1 of the kernel program is the first dense layer: on a block of 5000 rows it scales each row of
  the aggregated features by that row's entry of a one-column array, multiplies by the 128 x 128 weight
  matrix, adds the bias row and takes the maximum with zero. Over the extended reals the two changes of
  float format are the identity and the matrix product is the plain sum over the 128 contracted entries,
  so entry (r, j) of the array the region leaves is
    max (sum over k of (a0 (r, k) * a1 (r, 0)) * a2 (k, j) + a3 (0, j)) 0
  of the four arrays the region finds. The 20 blocks of 5000 rows tile the rows.
-/
import proofs.«419107_j19997367730786_1_alg».proof.Proof.ScaleRegion0
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-- Entry `k` of the row of `i`. -/
abbrev lhsAt (i : S100000x128.Idx) (k : Fin 128) : S100000x128.Idx := fun a => match a with
  | ⟨0, _⟩ => ⟨(i 0).val, (i 0).isLt⟩
  | ⟨1, _⟩ => ⟨k.val, k.isLt⟩
/-- Entry `k` of the weight column of `i`. -/
abbrev rhsAt (i : S100000x128.Idx) (k : Fin 128) : S128x128.Idx := fun a => match a with
  | ⟨0, _⟩ => ⟨k.val, k.isLt⟩
  | ⟨1, _⟩ => ⟨(i 1).val, (i 1).isLt⟩
/-- The bias entry of the column of `i`. -/
abbrev biasAt (i : S100000x128.Idx) : S1x128.Idx := fun a => match a with
  | ⟨0, _⟩ => ⟨0, Nat.one_pos⟩
  | ⟨1, _⟩ => ⟨(i 1).val, (i 1).isLt⟩
/-- The same three inside a block of 5000 rows. -/
abbrev lhsAtBlock (j : S5000x128.Idx) (k : Fin 128) : S5000x128.Idx := fun a => match a with
  | ⟨0, _⟩ => ⟨(j 0).val, (j 0).isLt⟩
  | ⟨1, _⟩ => ⟨k.val, k.isLt⟩
abbrev rhsAtBlock (j : S5000x128.Idx) (k : Fin 128) : S128x128.Idx := fun a => match a with
  | ⟨0, _⟩ => ⟨k.val, k.isLt⟩
  | ⟨1, _⟩ => ⟨(j 1).val, (j 1).isLt⟩
abbrev biasAtBlock (j : S5000x128.Idx) : S1x128.Idx := fun a => match a with
  | ⟨0, _⟩ => ⟨0, Nat.one_pos⟩
  | ⟨1, _⟩ => ⟨(j 1).val, (j 1).isLt⟩

/-- The first dense layer with its rectifier: rows of `a0` scaled by `a1`, times the weights `a2`, plus the bias `a3`, clipped below at zero. -/
def hiddenLayer (a0 : S100000x128.Idx → EReal) (a1 : S100000x1.Idx → EReal) (a2 : S128x128.Idx → EReal) (a3 : S1x128.Idx → EReal) :
    S100000x128.Idx → EReal :=
  fun i => max ((∑ k : Fin 128, (a0 (lhsAt i k) * a1 (colOf i)) * a2 (rhsAt i k)) + a3 (biasAt i)) (Ideal.ofBits .f32 0x00000000#32)

/-- The bias row broadcast down the rows, read at an index: the column's entry. -/
theorem rows_of_bias (x : S1x128.Idx → EReal) (h : S1x128.Broadcasts S5000x128) (j : S5000x128.Idx) :
    broadcastTo S5000x128 x h j = x (biasAtBlock j) :=
  broadcastTo_apply x h j (biasAtBlock j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-! The operand indices of the block's matrix product, axis by axis. -/
theorem lhs_blk1_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk1_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_blk1_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_blk1_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at an index of the block. -/
theorem pay1_apply (x0 : Vec Ideal S5000x128 .f32) (x2 : Vec Ideal S5000x1 .f32) (x7 : Vec Ideal S128x128 .f32) (x10 : Vec Ideal S1x128 .f32) (j : S5000x128.Idx) :
    k1_pay1 x0 x2 x7 x10 j
      = max ((∑ k : Fin 128, (x0 (lhsAtBlock j k) * x2 (colOfBlock j)) * x7 (rhsAtBlock j k)) + x10 (biasAtBlock j)) (Ideal.ofBits .f32 0x00000000#32) := by
  unfold k1_pay1
  show max ((matmul (F := Ideal) dot_S5000x128_S128x128_S5000x128_1_0_0_1_n_n none
        (truncf .bf16 (mulf (shapeCast S5000x128 x0 shapeCasts_S5000x128_S5000x128) (broadcastTo S5000x128 (shapeCast S5000x1 x2 shapeCasts_S5000x1_S5000x1) broadcasts_S5000x1_S5000x128)) bitsLt_bf16_f32)
        (truncf .bf16 x7 bitsLt_bf16_f32) (constant (F := Ideal) S5000x128 .f32 0x00000000#32) j : EReal)
      + (broadcastTo S5000x128 (shapeCast S1x128 x10 shapeCasts_S1x128_S1x128) broadcasts_S1x128_S5000x128 j : EReal)) (Ideal.ofBits .f32 0x00000000#32) = _
  rw [shapeCast_self, shapeCast_self, shapeCast_self, rows_of_bias]
  simp only [matmul]
  rw [Ideal.matmul_constant_zero_apply, ← Equiv.sum_comp (contrEquiv1 dot_S5000x128_S128x128_S5000x128_1_0_0_1_n_n 128 rfl rfl).symm]
  refine congrArg (fun s => max (s + x10 (biasAtBlock j)) (Ideal.ofBits .f32 0x00000000#32)) (Finset.sum_congr rfl fun k _ => ?_)
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = lhsAtBlock j k := funext fun a => Fin.ext (by
    match a with
    | ⟨0, _⟩ => exact lhs_blk1_0 _ _
    | ⟨1, _⟩ => exact (lhs_blk1_1 _ _).trans hk)
  have er : dot_S5000x128_S128x128_S5000x128_1_0_0_1_n_n.rhsIdx j ((contrEquiv1 dot_S5000x128_S128x128_S5000x128_1_0_0_1_n_n 128 rfl rfl).symm k) = rhsAtBlock j k := funext fun a => Fin.ext (by
    match a with
    | ⟨0, _⟩ => exact (rhs_blk1_0 _ _).trans hk
    | ⟨1, _⟩ => exact rhs_blk1_1 _ _)
  rw [el, er]
  show (x0 (lhsAtBlock j k) * broadcastTo S5000x128 x2 broadcasts_S5000x1_S5000x128 (lhsAtBlock j k)) * x7 (rhsAtBlock j k) = _
  rw [lanes_of_column]

/-- The row windows move together over the 20 points; the weights and the bias stay at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer's result. -/
theorem flushed1 (c : Dev nD) (t : Fin cfg1.N) :
    (dat1 V c).flushed 4 t = ((cfg1.win 4).blk t).view.read (Elt Ideal) (hiddenLayer (V c main_v18) (V c main_v19) (V c main_arg1) (V c main_v20)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨e0, e1, e2, e3, e4, e5, e6, e7, e8, e9⟩ := idx_facts1 t
  funext j
  refine (pay1_apply _ _ _ _ j).trans ?_
  have h0 : ∀ k : Fin 128, ((cfg1.win 0).blk t).view.emb (lhsAtBlock j k) = lhsAt (((cfg1.win 4).blk t).view.emb j) k := fun k => by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have h1 : ((cfg1.win 1).blk t).view.emb (colOfBlock j) = colOf (((cfg1.win 4).blk t).view.emb j) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ∀ k : Fin 128, ((cfg1.win 2).blk t).view.emb (rhsAtBlock j k) = rhsAt (((cfg1.win 4).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have h3 : ((cfg1.win 3).blk t).view.emb (biasAtBlock j) = biasAt (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  have key : ∀ (A0 : S100000x128.Idx → EReal) (A1 : S100000x1.Idx → EReal) (A2 : S128x128.Idx → EReal) (A3 : S1x128.Idx → EReal),
      max ((∑ k : Fin 128, (A0 (((cfg1.win 0).blk t).view.emb (lhsAtBlock j k)) * A1 (((cfg1.win 1).blk t).view.emb (colOfBlock j)))
          * A2 (((cfg1.win 2).blk t).view.emb (rhsAtBlock j k))) + A3 (((cfg1.win 3).blk t).view.emb (biasAtBlock j))) (Ideal.ofBits .f32 0x00000000#32)
        = hiddenLayer A0 A1 A2 A3 (((cfg1.win 4).blk t).view.emb j) := by
    intro A0 A1 A2 A3; unfold hiddenLayer; rw [h1, h3]
    exact congrArg (fun s => max (s + _) _) (Finset.sum_congr rfl fun k _ => by rw [h0 k, h2 k])
  exact key (V c main_v18) (V c main_v19) (V c main_arg1) (V c main_v20)

/-- An index of the result lies in point `t`'s block iff each coordinate lies in the block's range. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v21).slice (win1_4.rect t)).set ↔ _
  rw [View.set_slice_whole, Rect.mem_set_unit]
  exact Iff.rfl

/-- Row `r` lies in the block of point `r / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5, e6, e7, e8, e9⟩ := idx_facts1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array region 1 leaves: the first dense layer of the four arrays it finds. -/
theorem region1_value (c : Dev nD) :
    (dat1 V c).arrAt 4 cfg1.N = hiddenLayer (V c main_v18) (V c main_v19) (V c main_arg1) (V c main_v20) :=
  (dat1 V c).arrAt_eq_of_cover 4 (hiddenLayer (V c main_v18) (V c main_v19) (V c main_arg1) (V c main_v20)) (fun t _ => flushed1 V c t) cover1

end Cert.KernelIdeal.RegionValue

end
-- ==== Proof.LinearRegion3.lean ====
/-
  Region 3 of the kernel program is the second dense layer: on a block of 5000 rows it scales each row of
  the aggregated hidden features by that row's entry of a one-column array, multiplies by the 128 x 40
  weight matrix and adds the bias row; there is no rectifier. Over the extended reals entry (r, j) of the
  array the region leaves is
    sum over k of (a0 (r, k) * a1 (r, 0)) * a2 (k, j) + a3 (0, j)
  of the four arrays the region finds. The 20 blocks of 5000 rows tile the rows.
-/
import proofs.«419107_j19997367730786_1_alg».proof.Proof.ScaleRegion0
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-- Entry `k` of the feature row of the output index `i`. -/
abbrev featAt (i : S100000x40.Idx) (k : Fin 128) : S100000x128.Idx := fun a => match a with
  | ⟨0, _⟩ => ⟨(i 0).val, (i 0).isLt⟩
  | ⟨1, _⟩ => ⟨k.val, k.isLt⟩
/-- Entry `k` of the weight column of `i`. -/
abbrev weightAt (i : S100000x40.Idx) (k : Fin 128) : S128x40.Idx := fun a => match a with
  | ⟨0, _⟩ => ⟨k.val, k.isLt⟩
  | ⟨1, _⟩ => ⟨(i 1).val, (i 1).isLt⟩
/-- The bias entry of the column of `i`. -/
abbrev classBiasAt (i : S100000x40.Idx) : S1x40.Idx := fun a => match a with
  | ⟨0, _⟩ => ⟨0, Nat.one_pos⟩
  | ⟨1, _⟩ => ⟨(i 1).val, (i 1).isLt⟩
/-- The row's entry of a one-column array. -/
abbrev normAt (i : S100000x40.Idx) : S100000x1.Idx := fun a => match a with
  | ⟨0, _⟩ => ⟨(i 0).val, (i 0).isLt⟩
  | ⟨1, _⟩ => ⟨0, Nat.one_pos⟩
/-- The same four inside a block of 5000 rows. -/
abbrev featAtBlock (j : S5000x40.Idx) (k : Fin 128) : S5000x128.Idx := fun a => match a with
  | ⟨0, _⟩ => ⟨(j 0).val, (j 0).isLt⟩
  | ⟨1, _⟩ => ⟨k.val, k.isLt⟩
abbrev weightAtBlock (j : S5000x40.Idx) (k : Fin 128) : S128x40.Idx := fun a => match a with
  | ⟨0, _⟩ => ⟨k.val, k.isLt⟩
  | ⟨1, _⟩ => ⟨(j 1).val, (j 1).isLt⟩
abbrev classBiasAtBlock (j : S5000x40.Idx) : S1x40.Idx := fun a => match a with
  | ⟨0, _⟩ => ⟨0, Nat.one_pos⟩
  | ⟨1, _⟩ => ⟨(j 1).val, (j 1).isLt⟩
abbrev normAtBlock (j : S5000x40.Idx) : S5000x1.Idx := fun a => match a with
  | ⟨0, _⟩ => ⟨(j 0).val, (j 0).isLt⟩
  | ⟨1, _⟩ => ⟨0, Nat.one_pos⟩

/-- The second dense layer: rows of `a0` scaled by `a1`, times the weights `a2`, plus the bias `a3`. -/
def outputLayer (a0 : S100000x128.Idx → EReal) (a1 : S100000x1.Idx → EReal) (a2 : S128x40.Idx → EReal) (a3 : S1x40.Idx → EReal) :
    S100000x40.Idx → EReal :=
  fun i => (∑ k : Fin 128, (a0 (featAt i k) * a1 (normAt i)) * a2 (weightAt i k)) + a3 (classBiasAt i)

/-- The bias row broadcast down the rows, read at an index: the column's entry. -/
theorem rows_of_classBias (x : S1x40.Idx → EReal) (h : S1x40.Broadcasts S5000x40) (j : S5000x40.Idx) :
    broadcastTo S5000x40 x h j = x (classBiasAtBlock j) :=
  broadcastTo_apply x h j (classBiasAtBlock j) (fun a => match a with
    | ⟨0, _⟩ => by show 0 = if (1 : Nat) = 1 then 0 else (j 0).val; rw [if_pos rfl]
    | ⟨1, _⟩ => by show (j 1).val = if (40 : Nat) = 1 then 0 else (j 1).val; rw [if_neg (by decide)])

/-! The operand indices of the block's matrix product, axis by axis. -/
theorem lhs_blk3_0 (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_blk3_1 (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
theorem rhs_blk3_0 (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
theorem rhs_blk3_1 (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The body's value at an index of the block. -/
theorem pay3_apply (x0 : Vec Ideal S5000x128 .f32) (x2 : Vec Ideal S5000x1 .f32) (x7 : Vec Ideal S128x40 .f32) (x10 : Vec Ideal S1x40 .f32) (j : S5000x40.Idx) :
    k3_pay1 x0 x2 x7 x10 j
      = (∑ k : Fin 128, (x0 (featAtBlock j k) * x2 (normAtBlock j)) * x7 (weightAtBlock j k)) + x10 (classBiasAtBlock j) := by
  unfold k3_pay1
  show (matmul (F := Ideal) dot_S5000x128_S128x40_S5000x40_1_0_0_1_n_n none
        (truncf .bf16 (mulf (shapeCast S5000x128 x0 shapeCasts_S5000x128_S5000x128) (broadcastTo S5000x128 (shapeCast S5000x1 x2 shapeCasts_S5000x1_S5000x1) broadcasts_S5000x1_S5000x128)) bitsLt_bf16_f32)
        (truncf .bf16 x7 bitsLt_bf16_f32) (constant (F := Ideal) S5000x40 .f32 0x00000000#32) j : EReal)
      + (broadcastTo S5000x40 (shapeCast S1x40 x10 shapeCasts_S1x40_S1x40) broadcasts_S1x40_S5000x40 j : EReal) = _
  rw [shapeCast_self, shapeCast_self, shapeCast_self, rows_of_classBias]
  simp only [matmul]
  rw [Ideal.matmul_constant_zero_apply, ← Equiv.sum_comp (contrEquiv1 dot_S5000x128_S128x40_S5000x40_1_0_0_1_n_n 128 rfl rfl).symm]
  refine congrArg (fun s => s + x10 (classBiasAtBlock j)) (Finset.sum_congr rfl fun k _ => ?_)
  have hk := contrEquiv1_symm_val dot_S5000x128_S128x40_S5000x40_1_0_0_1_n_n 128 rfl rfl k
  have el : dot_S5000x128_S128x40_S5000x40_1_0_0_1_n_n.lhsIdx j ((contrEquiv1 dot_S5000x128_S128x40_S5000x40_1_0_0_1_n_n 128 rfl rfl).symm k) = featAtBlock j k := funext fun a => Fin.ext (by
    match a with
    | ⟨0, _⟩ => exact lhs_blk3_0 _ _
    | ⟨1, _⟩ => exact (lhs_blk3_1 _ _).trans hk)
  have er : dot_S5000x128_S128x40_S5000x40_1_0_0_1_n_n.rhsIdx j ((contrEquiv1 dot_S5000x128_S128x40_S5000x40_1_0_0_1_n_n 128 rfl rfl).symm k) = weightAtBlock j k := funext fun a => Fin.ext (by
    match a with
    | ⟨0, _⟩ => exact (rhs_blk3_0 _ _).trans hk
    | ⟨1, _⟩ => exact rhs_blk3_1 _ _)
  rw [el, er]
  show (x0 (featAtBlock j k) * broadcastTo S5000x128 x2 broadcasts_S5000x1_S5000x128 (featAtBlock j k)) * x7 (weightAtBlock j k) = _
  rw [lanes_of_column]
  have hn : colOfBlock (featAtBlock j k) = normAtBlock j := funext fun a => by
    match a with
    | ⟨0, _⟩ => rfl
    | ⟨1, _⟩ => rfl
  rw [hn]

/-- The row windows move together over the 20 points; the weights and the bias stay at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the layer's result. -/
theorem flushed3 (c : Dev nD) (t : Fin cfg3.N) :
    (dat3 V c).flushed 4 t = ((cfg3.win 4).blk t).view.read (Elt Ideal) (outputLayer (V c main_v27) (V c main_v28) (V c main_arg3) (V c main_v29)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S128x40) zero_offsets, View.ld_unit_zero (S := S1x40) zero_offsets]
  obtain ⟨e0, e1, e2, e3, e4, e5, e6, e7, e8, e9⟩ := idx_facts3 t
  funext j
  refine (pay3_apply _ _ _ _ j).trans ?_
  have h0 : ∀ k : Fin 128, ((cfg3.win 0).blk t).view.emb (featAtBlock j k) = featAt (((cfg3.win 4).blk t).view.emb j) k := fun k => by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  have h1 : ((cfg3.win 1).blk t).view.emb (normAtBlock j) = normAt (((cfg3.win 4).blk t).view.emb j) := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 1 + 1 * 0 = 0; omega
  have h2 : ∀ k : Fin 128, ((cfg3.win 2).blk t).view.emb (weightAtBlock j k) = weightAt (((cfg3.win 4).blk t).view.emb j) k := fun k => by
    funext a; apply Fin.ext
    match a with
    | ⟨0, _⟩ => show win3_2.index t (0 : Fin 2) * 128 + 1 * k.val = k.val; omega
    | ⟨1, _⟩ => show win3_2.index t (1 : Fin 2) * 40 + 1 * (j 1).val = win3_4.index t (1 : Fin 2) * 40 + 1 * (j 1).val; omega
  have h3 : ((cfg3.win 3).blk t).view.emb (classBiasAtBlock j) = classBiasAt (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 40 + 1 * (j 1).val = win3_4.index t (1 : Fin 2) * 40 + 1 * (j 1).val; omega
  have key : ∀ (A0 : S100000x128.Idx → EReal) (A1 : S100000x1.Idx → EReal) (A2 : S128x40.Idx → EReal) (A3 : S1x40.Idx → EReal),
      (∑ k : Fin 128, (A0 (((cfg3.win 0).blk t).view.emb (featAtBlock j k)) * A1 (((cfg3.win 1).blk t).view.emb (normAtBlock j)))
          * A2 (((cfg3.win 2).blk t).view.emb (weightAtBlock j k))) + A3 (((cfg3.win 3).blk t).view.emb (classBiasAtBlock j))
        = outputLayer A0 A1 A2 A3 (((cfg3.win 4).blk t).view.emb j) := by
    intro A0 A1 A2 A3; unfold outputLayer; rw [h1, h3]
    exact congrArg (fun s => s + _) (Finset.sum_congr rfl fun k _ => by rw [h0 k, h2 k])
  exact key (V c main_v27) (V c main_v28) (V c main_arg3) (V c main_v29)

/-- An index of the result lies in point `t`'s block iff each coordinate lies in the block's range. -/
theorem mem_blk3 (t : Fin cfg3.N) (i : S100000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v30).slice (win3_4.rect t)).set ↔ _
  rw [View.set_slice_whole, Rect.mem_set_unit]
  exact Iff.rfl

/-- Row `r` lies in the block of point `r / 5000`. -/
theorem cover3 (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have hN : cfg3.N = 20 := N_3
  let t : Fin cfg3.N := ⟨(i 0).val / 5000, by rw [hN]; omega⟩
  obtain ⟨e0, e1, e2, e3, e4, e5, e6, e7, e8, e9⟩ := idx_facts3 t
  have ht : t.val = (i 0).val / 5000 := rfl
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 40 ≤ (i 1).val ∧ (i 1).val < win3_4.index t (1 : Fin 2) * 40 + 40; omega

/-- The array region 3 leaves: the second dense layer of the four arrays it finds. -/
theorem region3_value (c : Dev nD) :
    (dat3 V c).arrAt 4 cfg3.N = outputLayer (V c main_v27) (V c main_v28) (V c main_arg3) (V c main_v29) :=
  (dat3 V c).arrAt_eq_of_cover 4 (outputLayer (V c main_v27) (V c main_v28) (V c main_arg3) (V c main_v29)) (fun t _ => flushed3 V c t) cover3

end Cert.KernelIdeal.RegionValue

end
-- ==== Proof.KernelValue.lean ====
/-
  The kernel program's result as one function of its seven arguments. Following the segments in order:
  the degree normalisations are computed before region 0; region 0 scales the rows of x by the source
  normalisation; the host gathers the scaled rows at the source indices and adds them into the rows the
  destination indices name; region 1 is the first dense layer with its rectifier, the rows scaled by the
  destination normalisation; region 2 scales the hiddenFeats rows by the source normalisation; the host
  aggregates again; region 3 is the second dense layer. A buffer that a segment neither writes nor holds
  as an output array keeps its contents across the segment, which is how the arguments and the two
  normalisations reach the segments that read them.
-/
import proofs.«419107_j19997367730786_1_alg».proof.Proof.HostChain
import proofs.«419107_j19997367730786_1_alg».proof.Proof.ScaleRegion0
import proofs.«419107_j19997367730786_1_alg».proof.Proof.ScaleRegion2
import proofs.«419107_j19997367730786_1_alg».proof.Proof.LinearRegion1
import proofs.«419107_j19997367730786_1_alg».proof.Proof.LinearRegion3

set_option maxRecDepth 16384

noncomputable section

namespace Cert.KernelIdeal.KernelValue

open Cert.KernelIdeal Cert.KernelIdeal.Gen Cert.KernelIdeal.RegionValue Cert.KernelIdeal.HostValue
open Idealize.ShloMosaic Idealize.ShloMosaic.TcCoe Idealize.SL.Sem

/-! ## The stages, as functions of the arguments -/

section Stages

variable (x : FVec Ideal S100000x128 .f32) (w1 : FVec Ideal S128x128 .f32) (b1 : FVec Ideal S128 .f32)
  (w2 : FVec Ideal S128x40 .f32) (b2 : FVec Ideal S40 .f32) (src dst : IVec S1600000 32)

/-- The source normalisation as one column. -/
def srcCol : FVec Ideal S100000x1 .f32 := shapeCast S100000x1 (degNorm (F := Ideal) src) shapeCasts_S100000_S100000x1
/-- The destination normalisation as one column. -/
def dstCol : FVec Ideal S100000x1 .f32 := shapeCast S100000x1 (degNorm (F := Ideal) dst) shapeCasts_S100000_S100000x1
/-- The first layer's messages: the source-normalised features, aggregated along the edges. -/
def messages0 : FVec Ideal S100000x128 .f32 := aggregate (F := Ideal) (rowScaled x (srcCol src)) src dst
/-- The hiddenFeats features. -/
def hiddenFeats : FVec Ideal S100000x128 .f32 :=
  hiddenLayer (messages0 x src dst) (dstCol dst) w1 (shapeCast S1x128 b1 shapeCasts_S128_S1x128)
/-- The second layer's messages. -/
def messages1 : FVec Ideal S100000x128 .f32 := aggregate (F := Ideal) (rowScaled (hiddenFeats x w1 b1 src dst) (srcCol src)) src dst
/-- The program's result. -/
def kernelOut : FVec Ideal S100000x40 .f32 :=
  outputLayer (messages1 x w1 b1 src dst) (dstCol dst) w2 (shapeCast S1x40 b2 shapeCasts_S40_S1x40)

end Stages

variable (m : (ℓ : Loc nD τ sig) → Buf (Elt Ideal) ℓ) (ρ : Dev nD → PrngReg) (c : Dev nD)

/-! ## At region 0's entry -/

theorem arg0_5 : W5 m ρ c (Proc.devRef .tc main_arg0) = m ((c.tc : Thread nD τ).loc main_arg0) := (args_at5 m ρ c).1
theorem arg1_5 : W5 m ρ c (Proc.devRef .tc main_arg1) = m ((c.tc : Thread nD τ).loc main_arg1) := (args_at5 m ρ c).2.1
theorem arg2_5 : W5 m ρ c (Proc.devRef .tc main_arg2) = m ((c.tc : Thread nD τ).loc main_arg2) := (args_at5 m ρ c).2.2.1
theorem arg3_5 : W5 m ρ c (Proc.devRef .tc main_arg3) = m ((c.tc : Thread nD τ).loc main_arg3) := (args_at5 m ρ c).2.2.2.1
theorem arg4_5 : W5 m ρ c (Proc.devRef .tc main_arg4) = m ((c.tc : Thread nD τ).loc main_arg4) := (args_at5 m ρ c).2.2.2.2.1
theorem arg5_5 : W5 m ρ c (Proc.devRef .tc main_arg5) = m ((c.tc : Thread nD τ).loc main_arg5) := (args_at5 m ρ c).2.2.2.2.2.1
theorem arg6_5 : W5 m ρ c (Proc.devRef .tc main_arg6) = m ((c.tc : Thread nD τ).loc main_arg6) := (args_at5 m ρ c).2.2.2.2.2.2

/-! ## At region 0's exit: its output, and what it does not touch -/

theorem scaled_6 : W6 m ρ c (Proc.devRef .tc main_v14)
    = rowScaled (m ((c.tc : Thread nD τ).loc main_arg0)) (srcCol (m ((c.tc : Thread nD τ).loc main_arg5))) := by
  have h : W6 m ρ c (Proc.devRef .tc main_v14)
      = rowScaled (W5 m ρ c (Proc.devRef .tc main_arg0)) (W5 m ρ c (Proc.devRef .tc main_v13)) :=
    (W6_arr m ρ c 2).trans (region0_value (V5 m ρ) c)
  unfold srcCol
  rw [h, arg0_5, srcCol_at5]

theorem srcNorm_6 : W6 m ρ c (Proc.devRef .tc main_v10) = degNorm (F := Ideal) (m ((c.tc : Thread nD τ).loc main_arg5)) :=
  (W6_of_ne m ρ c main_v10 (by decide)).trans (srcNorm_at5 m ρ c)
theorem dstNorm_6 : W6 m ρ c (Proc.devRef .tc main_v12) = degNorm (F := Ideal) (m ((c.tc : Thread nD τ).loc main_arg6)) :=
  (W6_of_ne m ρ c main_v12 (by decide)).trans (dstNorm_at5 m ρ c)
theorem arg1_6 : W6 m ρ c (Proc.devRef .tc main_arg1) = m ((c.tc : Thread nD τ).loc main_arg1) :=
  (W6_of_ne m ρ c main_arg1 (by decide)).trans (arg1_5 m ρ c)
theorem arg2_6 : W6 m ρ c (Proc.devRef .tc main_arg2) = m ((c.tc : Thread nD τ).loc main_arg2) :=
  (W6_of_ne m ρ c main_arg2 (by decide)).trans (arg2_5 m ρ c)
theorem arg3_6 : W6 m ρ c (Proc.devRef .tc main_arg3) = m ((c.tc : Thread nD τ).loc main_arg3) :=
  (W6_of_ne m ρ c main_arg3 (by decide)).trans (arg3_5 m ρ c)
theorem arg4_6 : W6 m ρ c (Proc.devRef .tc main_arg4) = m ((c.tc : Thread nD τ).loc main_arg4) :=
  (W6_of_ne m ρ c main_arg4 (by decide)).trans (arg4_5 m ρ c)
theorem arg5_6 : W6 m ρ c (Proc.devRef .tc main_arg5) = m ((c.tc : Thread nD τ).loc main_arg5) :=
  (W6_of_ne m ρ c main_arg5 (by decide)).trans (arg5_5 m ρ c)
theorem arg6_6 : W6 m ρ c (Proc.devRef .tc main_arg6) = m ((c.tc : Thread nD τ).loc main_arg6) :=
  (W6_of_ne m ρ c main_arg6 (by decide)).trans (arg6_5 m ρ c)

/-! ## At region 1's entry -/

theorem messages_8 : W8 m ρ c (Proc.devRef .tc main_v18)
    = messages0 (m ((c.tc : Thread nD τ).loc main_arg0)) (m ((c.tc : Thread nD τ).loc main_arg5)) (m ((c.tc : Thread nD τ).loc main_arg6)) := by
  have h : W8 m ρ c (Proc.devRef .tc main_v18)
      = aggregate (F := Ideal) (W6 m ρ c (Proc.devRef .tc main_v14)) (W6 m ρ c (Proc.devRef .tc main_arg5)) (W6 m ρ c (Proc.devRef .tc main_arg6)) :=
    aggregate1 (W6 m ρ c)
  unfold messages0
  rw [h, scaled_6, arg5_6, arg6_6]

theorem dstCol_8 : W8 m ρ c (Proc.devRef .tc main_v19) = dstCol (m ((c.tc : Thread nD τ).loc main_arg6)) := by
  have h : W8 m ρ c (Proc.devRef .tc main_v19)
      = shapeCast S100000x1 (W7 m ρ c (Proc.devRef .tc main_v12)) shapeCasts_S100000_S100000x1 := (reshapes1 (W7 m ρ c)).1
  have k : W7 m ρ c (Proc.devRef .tc main_v12) = W6 m ρ c (Proc.devRef .tc main_v12) := (take1_keeps (W6 m ρ c)).2.1
  unfold dstCol
  rw [h, k, dstNorm_6]

theorem biasRow_8 : W8 m ρ c (Proc.devRef .tc main_v20)
    = shapeCast S1x128 (m ((c.tc : Thread nD τ).loc main_arg2)) shapeCasts_S128_S1x128 := by
  have h : W8 m ρ c (Proc.devRef .tc main_v20)
      = shapeCast S1x128 (W7 m ρ c (Proc.devRef .tc main_arg2)) shapeCasts_S128_S1x128 := (reshapes1 (W7 m ρ c)).2
  have k : W7 m ρ c (Proc.devRef .tc main_arg2) = W6 m ρ c (Proc.devRef .tc main_arg2) := (take1_keeps (W6 m ρ c)).2.2.1
  rw [h, k, arg2_6]

theorem weights_8 : W8 m ρ c (Proc.devRef .tc main_arg1) = m ((c.tc : Thread nD τ).loc main_arg1) := by
  have h : W8 m ρ c (Proc.devRef .tc main_arg1) = W7 m ρ c (Proc.devRef .tc main_arg1) := (sum1_keeps (W7 m ρ c)).1
  have k : W7 m ρ c (Proc.devRef .tc main_arg1) = W6 m ρ c (Proc.devRef .tc main_arg1) := (take1_keeps (W6 m ρ c)).2.2.2.1
  rw [h, k, arg1_6]

theorem srcNorm_8 : W8 m ρ c (Proc.devRef .tc main_v10) = degNorm (F := Ideal) (m ((c.tc : Thread nD τ).loc main_arg5)) := by
  have h : W8 m ρ c (Proc.devRef .tc main_v10) = W7 m ρ c (Proc.devRef .tc main_v10) := (sum1_keeps (W7 m ρ c)).2.1
  have k : W7 m ρ c (Proc.devRef .tc main_v10) = W6 m ρ c (Proc.devRef .tc main_v10) := (take1_keeps (W6 m ρ c)).2.2.2.2.1
  rw [h, k, srcNorm_6]

theorem dstNorm_8 : W8 m ρ c (Proc.devRef .tc main_v12) = degNorm (F := Ideal) (m ((c.tc : Thread nD τ).loc main_arg6)) := by
  have h : W8 m ρ c (Proc.devRef .tc main_v12) = W7 m ρ c (Proc.devRef .tc main_v12) := (sum1_keeps (W7 m ρ c)).2.2.1
  have k : W7 m ρ c (Proc.devRef .tc main_v12) = W6 m ρ c (Proc.devRef .tc main_v12) := (take1_keeps (W6 m ρ c)).2.1
  rw [h, k, dstNorm_6]

theorem arg3_8 : W8 m ρ c (Proc.devRef .tc main_arg3) = m ((c.tc : Thread nD τ).loc main_arg3) := by
  have h : W8 m ρ c (Proc.devRef .tc main_arg3) = W7 m ρ c (Proc.devRef .tc main_arg3) := (sum1_keeps (W7 m ρ c)).2.2.2.1
  have k : W7 m ρ c (Proc.devRef .tc main_arg3) = W6 m ρ c (Proc.devRef .tc main_arg3) := (take1_keeps (W6 m ρ c)).2.2.2.2.2.1
  rw [h, k, arg3_6]

theorem arg4_8 : W8 m ρ c (Proc.devRef .tc main_arg4) = m ((c.tc : Thread nD τ).loc main_arg4) := by
  have h : W8 m ρ c (Proc.devRef .tc main_arg4) = W7 m ρ c (Proc.devRef .tc main_arg4) := (sum1_keeps (W7 m ρ c)).2.2.2.2.1
  have k : W7 m ρ c (Proc.devRef .tc main_arg4) = W6 m ρ c (Proc.devRef .tc main_arg4) := (take1_keeps (W6 m ρ c)).2.2.2.2.2.2.1
  rw [h, k, arg4_6]

theorem arg5_8 : W8 m ρ c (Proc.devRef .tc main_arg5) = m ((c.tc : Thread nD τ).loc main_arg5) := by
  have h : W8 m ρ c (Proc.devRef .tc main_arg5) = W7 m ρ c (Proc.devRef .tc main_arg5) := (sum1_keeps (W7 m ρ c)).2.2.2.2.2.1
  have k : W7 m ρ c (Proc.devRef .tc main_arg5) = W6 m ρ c (Proc.devRef .tc main_arg5) := (take1_keeps (W6 m ρ c)).2.2.2.2.2.2.2
  rw [h, k, arg5_6]

theorem arg6_8 : W8 m ρ c (Proc.devRef .tc main_arg6) = m ((c.tc : Thread nD τ).loc main_arg6) := by
  have h : W8 m ρ c (Proc.devRef .tc main_arg6) = W7 m ρ c (Proc.devRef .tc main_arg6) := (sum1_keeps (W7 m ρ c)).2.2.2.2.2.2
  have k : W7 m ρ c (Proc.devRef .tc main_arg6) = W6 m ρ c (Proc.devRef .tc main_arg6) := (take1_keeps (W6 m ρ c)).1
  rw [h, k, arg6_6]

/-! ## At region 1's exit -/

theorem hidden_9 : W9 m ρ c (Proc.devRef .tc main_v21)
    = hiddenFeats (m ((c.tc : Thread nD τ).loc main_arg0)) (m ((c.tc : Thread nD τ).loc main_arg1)) (m ((c.tc : Thread nD τ).loc main_arg2))
        (m ((c.tc : Thread nD τ).loc main_arg5)) (m ((c.tc : Thread nD τ).loc main_arg6)) := by
  have h : W9 m ρ c (Proc.devRef .tc main_v21)
      = hiddenLayer (W8 m ρ c (Proc.devRef .tc main_v18)) (W8 m ρ c (Proc.devRef .tc main_v19))
          (W8 m ρ c (Proc.devRef .tc main_arg1)) (W8 m ρ c (Proc.devRef .tc main_v20)) :=
    (W9_arr m ρ c 4).trans (region1_value (V8 m ρ) c)
  unfold hiddenFeats
  rw [h, messages_8, dstCol_8, weights_8, biasRow_8]

theorem srcNorm_9 : W9 m ρ c (Proc.devRef .tc main_v10) = degNorm (F := Ideal) (m ((c.tc : Thread nD τ).loc main_arg5)) :=
  (W9_of_ne m ρ c main_v10 (by decide)).trans (srcNorm_8 m ρ c)
theorem dstNorm_9 : W9 m ρ c (Proc.devRef .tc main_v12) = degNorm (F := Ideal) (m ((c.tc : Thread nD τ).loc main_arg6)) :=
  (W9_of_ne m ρ c main_v12 (by decide)).trans (dstNorm_8 m ρ c)
theorem arg3_9 : W9 m ρ c (Proc.devRef .tc main_arg3) = m ((c.tc : Thread nD τ).loc main_arg3) :=
  (W9_of_ne m ρ c main_arg3 (by decide)).trans (arg3_8 m ρ c)
theorem arg4_9 : W9 m ρ c (Proc.devRef .tc main_arg4) = m ((c.tc : Thread nD τ).loc main_arg4) :=
  (W9_of_ne m ρ c main_arg4 (by decide)).trans (arg4_8 m ρ c)
theorem arg5_9 : W9 m ρ c (Proc.devRef .tc main_arg5) = m ((c.tc : Thread nD τ).loc main_arg5) :=
  (W9_of_ne m ρ c main_arg5 (by decide)).trans (arg5_8 m ρ c)
theorem arg6_9 : W9 m ρ c (Proc.devRef .tc main_arg6) = m ((c.tc : Thread nD τ).loc main_arg6) :=
  (W9_of_ne m ρ c main_arg6 (by decide)).trans (arg6_8 m ρ c)

/-! ## At region 2's entry and exit -/

theorem scaled_11 : W11 m ρ c (Proc.devRef .tc main_v23)
    = rowScaled (hiddenFeats (m ((c.tc : Thread nD τ).loc main_arg0)) (m ((c.tc : Thread nD τ).loc main_arg1)) (m ((c.tc : Thread nD τ).loc main_arg2))
        (m ((c.tc : Thread nD τ).loc main_arg5)) (m ((c.tc : Thread nD τ).loc main_arg6))) (srcCol (m ((c.tc : Thread nD τ).loc main_arg5))) := by
  have h : W11 m ρ c (Proc.devRef .tc main_v23)
      = rowScaled (W10 m ρ c (Proc.devRef .tc main_v21)) (W10 m ρ c (Proc.devRef .tc main_v22)) :=
    (W11_arr m ρ c 2).trans (region2_value (V10 m ρ) c)
  have k1 : W10 m ρ c (Proc.devRef .tc main_v21) = W9 m ρ c (Proc.devRef .tc main_v21) := (reshape2_keeps (W9 m ρ c)).1
  have k2 : W10 m ρ c (Proc.devRef .tc main_v22)
      = shapeCast S100000x1 (W9 m ρ c (Proc.devRef .tc main_v10)) shapeCasts_S100000_S100000x1 := reshape2 (W9 m ρ c)
  unfold srcCol
  rw [h, k1, k2, hidden_9, srcNorm_9]

theorem dstNorm_11 : W11 m ρ c (Proc.devRef .tc main_v12) = degNorm (F := Ideal) (m ((c.tc : Thread nD τ).loc main_arg6)) :=
  (W11_of_ne m ρ c main_v12 (by decide)).trans (((reshape2_keeps (W9 m ρ c)).2.1).trans (dstNorm_9 m ρ c))
theorem arg3_11 : W11 m ρ c (Proc.devRef .tc main_arg3) = m ((c.tc : Thread nD τ).loc main_arg3) :=
  (W11_of_ne m ρ c main_arg3 (by decide)).trans (((reshape2_keeps (W9 m ρ c)).2.2.1).trans (arg3_9 m ρ c))
theorem arg4_11 : W11 m ρ c (Proc.devRef .tc main_arg4) = m ((c.tc : Thread nD τ).loc main_arg4) :=
  (W11_of_ne m ρ c main_arg4 (by decide)).trans (((reshape2_keeps (W9 m ρ c)).2.2.2.1).trans (arg4_9 m ρ c))
theorem arg5_11 : W11 m ρ c (Proc.devRef .tc main_arg5) = m ((c.tc : Thread nD τ).loc main_arg5) :=
  (W11_of_ne m ρ c main_arg5 (by decide)).trans (((reshape2_keeps (W9 m ρ c)).2.2.2.2.1).trans (arg5_9 m ρ c))
theorem arg6_11 : W11 m ρ c (Proc.devRef .tc main_arg6) = m ((c.tc : Thread nD τ).loc main_arg6) :=
  (W11_of_ne m ρ c main_arg6 (by decide)).trans (((reshape2_keeps (W9 m ρ c)).2.2.2.2.2).trans (arg6_9 m ρ c))

/-! ## At region 3's entry -/

theorem messages_13 : W13 m ρ c (Proc.devRef .tc main_v27)
    = messages1 (m ((c.tc : Thread nD τ).loc main_arg0)) (m ((c.tc : Thread nD τ).loc main_arg1)) (m ((c.tc : Thread nD τ).loc main_arg2))
        (m ((c.tc : Thread nD τ).loc main_arg5)) (m ((c.tc : Thread nD τ).loc main_arg6)) := by
  have h : W13 m ρ c (Proc.devRef .tc main_v27)
      = aggregate (F := Ideal) (W11 m ρ c (Proc.devRef .tc main_v23)) (W11 m ρ c (Proc.devRef .tc main_arg5)) (W11 m ρ c (Proc.devRef .tc main_arg6)) :=
    aggregate3 (W11 m ρ c)
  unfold messages1
  rw [h, scaled_11, arg5_11, arg6_11]

theorem dstCol_13 : W13 m ρ c (Proc.devRef .tc main_v28) = dstCol (m ((c.tc : Thread nD τ).loc main_arg6)) := by
  have h : W13 m ρ c (Proc.devRef .tc main_v28)
      = shapeCast S100000x1 (W12 m ρ c (Proc.devRef .tc main_v12)) shapeCasts_S100000_S100000x1 := (reshapes3 (W12 m ρ c)).1
  have k : W12 m ρ c (Proc.devRef .tc main_v12) = W11 m ρ c (Proc.devRef .tc main_v12) := (take3_keeps (W11 m ρ c)).2.1
  unfold dstCol
  rw [h, k, dstNorm_11]

theorem biasRow_13 : W13 m ρ c (Proc.devRef .tc main_v29)
    = shapeCast S1x40 (m ((c.tc : Thread nD τ).loc main_arg4)) shapeCasts_S40_S1x40 := by
  have h : W13 m ρ c (Proc.devRef .tc main_v29)
      = shapeCast S1x40 (W12 m ρ c (Proc.devRef .tc main_arg4)) shapeCasts_S40_S1x40 := (reshapes3 (W12 m ρ c)).2
  have k : W12 m ρ c (Proc.devRef .tc main_arg4) = W11 m ρ c (Proc.devRef .tc main_arg4) := (take3_keeps (W11 m ρ c)).2.2.1
  rw [h, k, arg4_11]

theorem weights_13 : W13 m ρ c (Proc.devRef .tc main_arg3) = m ((c.tc : Thread nD τ).loc main_arg3) := by
  have h : W13 m ρ c (Proc.devRef .tc main_arg3) = W12 m ρ c (Proc.devRef .tc main_arg3) := sum3_keeps (W12 m ρ c)
  have k : W12 m ρ c (Proc.devRef .tc main_arg3) = W11 m ρ c (Proc.devRef .tc main_arg3) := (take3_keeps (W11 m ρ c)).2.2.2
  rw [h, k, arg3_11]

/-! ## Region 3: the result -/

/-- What the result buffer holds after the last region: the program's result of its arguments. -/
theorem result_value : W14 m ρ c (Proc.devRef .tc main_v30)
    = kernelOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  have h : W14 m ρ c (Proc.devRef .tc main_v30)
      = outputLayer (W13 m ρ c (Proc.devRef .tc main_v27)) (W13 m ρ c (Proc.devRef .tc main_v28))
          (W13 m ρ c (Proc.devRef .tc main_arg3)) (W13 m ρ c (Proc.devRef .tc main_v29)) :=
    (W14_arr m ρ c 4).trans (region3_value (V13 m ρ) c)
  unfold kernelOut
  rw [h, messages_13, dstCol_13, weights_13, biasRow_13]

end Cert.KernelIdeal.KernelValue

end
-- ==== Proof.InRange.lean ====
/-
  The gather of feature rows fills a row with a fixed word when its (wrapped) source index falls outside
  0 … 99999. When every source index is already a node index, 0 ≤ s < 100000 as signed words, no index is
  negative, so the wrap leaves it alone; each lies in range, so the mask is one everywhere; and the
  masked gather is the plain gather of the rows at those indices.
-/
import proofs.«419107_j19997367730786_1_alg».proof.Proof.HostChain
import Idealize.ShloMosaic.Lib.Pipeline.Value
import Idealize.ShloMosaic.Lib.StableHlo.Predicate
import Idealize.ShloMosaic.PureOps.Reduce

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-- Every source index is a node index: 0 ≤ s < 100000 as signed 32-bit words. -/
def InRange (src : IVec S1600000 32) : Prop :=
  ∀ e : S1600000.Idx, IntOp.cmpi .sge (src e) 0#32 = 1#1 ∧ IntOp.cmpi .slt (src e) 100000#32 = 1#1

/-- The two comparisons as bounds on the word's signed value. -/
theorem toInt_bounds (s : BitVec 32) (h0 : IntOp.cmpi .sge s 0#32 = 1#1) (h1 : IntOp.cmpi .slt s 100000#32 = 1#1) :
    0 ≤ s.toInt ∧ s.toInt < 100000 := by
  have h0' : BitVec.ofBool ((0#32 : BitVec 32).sle s) = 1#1 := h0
  have h1' : BitVec.ofBool (s.slt 100000#32) = 1#1 := h1
  rw [Predicate.ofBool_eq_one_iff] at h0' h1'
  have e0 : (0#32 : BitVec 32).toInt = 0 := by decide
  have e1 : (100000#32 : BitVec 32).toInt = 100000 := by decide
  simp only [BitVec.sle, BitVec.slt, decide_eq_true_eq, e0, e1] at h0' h1'
  exact ⟨h0', h1'⟩

/-- A word of non-negative value is not below zero. -/
theorem not_below_zero (s : BitVec 32) (hb : 0 ≤ s.toInt) : IntOp.cmpi .slt s 0#32 = 0#1 := by
  show BitVec.ofBool (s.slt 0#32) = 0#1
  have e0 : (0#32 : BitVec 32).toInt = 0 := by decide
  have hf : s.slt 0#32 = false := by
    simp only [BitVec.slt, e0]; exact decide_eq_false (by omega)
  rw [hf]; rfl

/-- A word of value below 100000 is at most 99999. -/
theorem at_most_last (s : BitVec 32) (hb : s.toInt < 100000) : IntOp.cmpi .sle s 99999#32 = 1#1 := by
  show BitVec.ofBool (s.sle 99999#32) = 1#1
  have e : (99999#32 : BitVec 32).toInt = 99999 := by decide
  have ht : s.sle 99999#32 = true := by
    simp only [BitVec.sle, e]; exact decide_eq_true (by omega)
  rw [ht]; rfl

/-- A fold by `and` from one over entries that are all one is one. -/
theorem foldl_andi_all_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h => by
    rw [List.foldl_cons]
    refine foldl_andi_all_one f l _ ?_ (fun n hn => h n (List.mem_cons_of_mem _ hn))
    rw [hi, h a (List.mem_cons.mpr (Or.inl rfl))]
    decide

/-- The edge an index of the one-column index array belongs to. -/
abbrev edgeOf (i : S1600000x1.Idx) : S1600000.Idx := fun a => match a with
  | ⟨0, _⟩ => ⟨(i 0).val, (i 0).isLt⟩

/-- The wrapped index of an edge, as one scalar selection. -/
theorem wrapIdx_apply (src : IVec S1600000 32) (i : S1600000x1.Idx) :
    wrapIdx src i = Scalar.select (IntOp.cmpi .slt (src (edgeOf i)) 0#32) (IntOp.addi (src (edgeOf i)) 100000#32) (src (edgeOf i)) := by
  unfold wrapIdx
  exact broadcastInDim_apply _ bcast_S1600000_S1600000x1_0 _ i (edgeOf i) (fun a => match a with
    | ⟨0, _⟩ => by show (i 0).val = if (1600000 : Nat) = 1 then 0 else (i 0).val; rw [if_neg (by decide)])

/-- In range, wrapping changes nothing. -/
theorem wrapIdx_of_inRange {src : IVec S1600000 32} (hs : InRange src) (i : S1600000x1.Idx) :
    wrapIdx src i = src (edgeOf i) := by
  obtain ⟨h0, h1⟩ := hs (edgeOf i)
  obtain ⟨b0, b1⟩ := toInt_bounds _ h0 h1
  rw [wrapIdx_apply, not_below_zero _ b0]
  show (if (0#1 : BitVec 1) = 1 then _ else _) = _
  rw [if_neg (by decide)]

/-- In range, the mask is one at every edge. -/
theorem mask_of_inRange {src : IVec S1600000 32} (hs : InRange src) (e : S1600000.Idx) : maskOf (wrapIdx src) e = 1#1 := by
  unfold maskOf
  rw [Host.reduce_eq_foldl]
  refine foldl_andi_all_one _ _ _ rfl (fun i _ => ?_)
  obtain ⟨h0, h1⟩ := hs (edgeOf i)
  obtain ⟨b0, b1⟩ := toInt_bounds _ h0 h1
  show IntOp.andi (IntOp.cmpi .sge (wrapIdx src i) 0#32) (IntOp.cmpi .sle (wrapIdx src i) 99999#32) = 1#1
  rw [wrapIdx_of_inRange hs i, h0, at_most_last _ b1]
  decide

variable {F : FTy → Type} [FloatOps F]

/-- In range, the masked gather is the gather. -/
theorem takeRows_of_inRange {src : IVec S1600000 32} (hs : InRange src) (h : FVec F S100000x128 .f32) :
    takeRows h src = Host.gather gather_S100000x128_S1600000x1_S1600000x128_1_0_n_n_0_1_1128 h (wrapIdx src) := by
  funext j
  unfold takeRows
  show Scalar.select (broadcastInDim S1600000x128 ![0] bcast_S1600000_S1600000x128_0 (maskOf (wrapIdx src)) j) _ _ = _
  have hm : broadcastInDim S1600000x128 ![0] bcast_S1600000_S1600000x128_0 (maskOf (wrapIdx src)) j = 1#1 := by
    unfold broadcastInDim; exact mask_of_inRange hs _
  rw [hm]
  show (if (1#1 : BitVec 1) = 1 then _ else _) = _
  exact if_pos (by decide)

end Cert.KernelIdeal.HostValue

end
-- ==== Proof.PreDecode.lean ====
/-
  The precondition's last conjunct says that every source index is a node index. The printed predicate is
  one `and` of the finiteness conjuncts with the `jnp.all` of (src ≥ 0) and (src < 100000); the predicate
  being one everywhere gives, edge by edge, the two signed comparisons.
-/
import proofs.«419107_j19997367730786_1_alg».proof.Proof.InRange
import proofs.«419107_j19997367730786_1_alg».proof.Proof.Gen.Pre_finite_inputs
import Idealize.ShloMosaic.Lib.ReduceAll
import Idealize.ShloMosaic.Lib.ValueIdx
import Idealize.ShloMosaic.PureOps.Ideal

noncomputable section

namespace Cert.Proof.Domain

open Idealize.ShloMosaic Cert.KernelIdeal.HostValue

instance scalarIdxSubsingleton : Subsingleton (⟨0, ![]⟩ : Shape).Idx := ⟨fun a b => funext fun d => d.elim0⟩

/-- Where the precondition holds, every source index lies in 0 … 99999. -/
theorem inRange_of_pre (x0 : FVec Ideal Cert.Pre_finite_inputs.S100000x128 .f32) (x1 : FVec Ideal Cert.Pre_finite_inputs.S128x128 .f32)
    (x2 : FVec Ideal Cert.Pre_finite_inputs.S128 .f32) (x3 : FVec Ideal Cert.Pre_finite_inputs.S128x40 .f32)
    (x4 : FVec Ideal Cert.Pre_finite_inputs.S40 .f32) (x5 x6 : IVec Cert.Pre_finite_inputs.S1600000 32)
    (h : Cert.Pre_finite_inputs.fn (F := Ideal) x0 x1 x2 x3 x4 x5 x6 = fun _ => 1#1) : InRange x5 := by
  have h0 := congrFun h ValueIdx.ix0
  dsimp only [Cert.Pre_finite_inputs.fn, Cert.Pre_finite_inputs.fn_part1] at h0
  obtain ⟨-, h1⟩ := IntOp.andi_eq_one.1 h0
  intro e
  have h2 := Host.reduce_andi_all _ _ _ _ _ h1 e
  exact IntOp.andi_eq_one.1 h2

end Cert.Proof.Domain

end
-- ==== Proof.Bridge.lean ====
/-
  The kernel program's result and the reference's are one function of the arguments, where every source
  index is a node index. Stage by stage: the two degree normalisations are the same host operations in
  both programs; scaling a row by a column entry is the reference's product with the broadcast column;
  with all source indices in range the kernel's masked gather is the reference's gather at the same
  wrapped indices, and the scatter-add after it is the same operation on both sides; a dense layer is,
  entry by entry, the same sum over the 128 contracted entries plus the same bias entry, the kernel's
  maximum with zero the reference's. No law of the extended reals is used beyond reading each operation
  at an index: the two sides add and multiply the same numbers in the same order.
-/
import proofs.«419107_j19997367730786_1_alg».proof.Proof.KernelValue
import proofs.«419107_j19997367730786_1_alg».proof.Proof.InRange
import proofs.«419107_j19997367730786_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Proof.Bridge

open Idealize.ShloMosaic Idealize.ShloMosaic.ValueIdx
open Cert.KernelIdeal Cert.KernelIdeal.Facts₀ Cert.KernelIdeal.RegionValue Cert.KernelIdeal.HostValue Cert.KernelIdeal.KernelValue
open Cert.ReferenceIdeal.Read
open scoped BigOperators

/-! ## The host operations the two programs share, compared as terms -/

section Shared

variable {F : FTy → Type} [FloatOps F]

attribute [local irreducible] Host.reduce

theorem degNorm_src (idx : IVec S1600000 32) : degNorm (F := F) idx = val_main_v10 (F := F) idx := by
  unfold degNorm val_main_v10 val_main_v9 val_main_cst_4 val_main_v4 val_main_call0_v1 val_main_call0_v0 val_main_cst_1
    val_main_v3 val_main_v2 val_main_v1 val_main_cst_0 val_main_v0 val_main_cst
  rfl

theorem degNorm_dst (idx : IVec S1600000 32) : degNorm (F := F) idx = val_main_v12 (F := F) idx := by
  unfold degNorm val_main_v12 val_main_v11 val_main_cst_5 val_main_v8 val_main_call1_v1 val_main_call1_v0 val_main_cst_3
    val_main_v7 val_main_v6 val_main_v5 val_main_cst_2 val_main_v0 val_main_cst
  rfl

theorem wrapIdx_first (src : IVec S1600000 32) : wrapIdx src = val_main_v21 (F := F) src := by
  unfold wrapIdx val_main_v21 val_main_v20 val_main_v19 val_main_v18 val_main_c_6 val_main_v17 val_main_v16 val_main_c
  rfl

theorem wrapIdx_second (src : IVec S1600000 32) : wrapIdx src = val_main_v42 (F := F) src := by
  unfold wrapIdx val_main_v42 val_main_v41 val_main_v40 val_main_v39 val_main_c_9 val_main_v38 val_main_v37 val_main_c_8
  rfl

/-- With the source indices in range, the kernel's first aggregation is the reference's gather and scatter-add. -/
theorem aggregate_first {src : IVec S1600000 32} (hs : InRange src) (h : FVec F S100000x128 .f32) (dst : IVec S1600000 32) :
    aggregate h src dst
      = Host.scatterAdd Cert.ReferenceIdeal.scatter_S100000x128_S1600000x1_S1600000x128_1_0_0_1 (val_main_v23 (F := F)) (val_main_v24 (F := F) dst)
          (Host.gather Cert.ReferenceIdeal.gather_S100000x128_S1600000x1_S1600000x128_1_0_n_n_0_1_1128 h (val_main_v21 (F := F) src)) := by
  unfold aggregate
  rw [takeRows_of_inRange hs, wrapIdx_first (F := F)]
  unfold val_main_v23 val_main_cst_7 val_main_v24
  rfl

/-- The same for the second aggregation. -/
theorem aggregate_second {src : IVec S1600000 32} (hs : InRange src) (h : FVec F S100000x128 .f32) (dst : IVec S1600000 32) :
    aggregate h src dst
      = Host.scatterAdd Cert.ReferenceIdeal.scatter_S100000x128_S1600000x1_S1600000x128_1_0_0_1 (val_main_v44 (F := F)) (val_main_v45 (F := F) dst)
          (Host.gather Cert.ReferenceIdeal.gather_S100000x128_S1600000x1_S1600000x128_1_0_n_n_0_1_1128 h (val_main_v42 (F := F) src)) := by
  unfold aggregate
  rw [takeRows_of_inRange hs, wrapIdx_second (F := F)]
  unfold val_main_v44 val_main_cst_10 val_main_v45
  rfl

end Shared

/-! ## Reshaped vectors read at an index -/

/-- A length-100000 vector as one column, read at a row: the vector's entry. -/
theorem column_apply (v : S100000.Idx → EReal) (j : S100000x1.Idx) :
    shapeCast S100000x1 v shapeCasts_S100000_S100000x1 j = v (idx_main_v13 j) :=
  shapeCast_apply v shapeCasts_S100000_S100000x1 j (idx_main_v13 j) (by
    rw [Shape.rowMajor_val_one, Shape.rowMajor_val_two]
    show (j 0).val = (j 0).val * 1 + (j 1).val
    have h1 : (j 1).val < 1 := (j 1).isLt
    omega)

/-- A length-128 vector as one row, read at a column: the vector's entry. -/
theorem row128_apply (b : S128.Idx → EReal) (j : S1x128.Idx) :
    shapeCast S1x128 b shapeCasts_S128_S1x128 j = b (idx_main_v30 j) :=
  shapeCast_apply b shapeCasts_S128_S1x128 j (idx_main_v30 j) (by
    rw [Shape.rowMajor_val_one, Shape.rowMajor_val_two]
    show (j 1).val = (j 0).val * 128 + (j 1).val
    have h0 : (j 0).val < 1 := (j 0).isLt
    omega)

/-- A length-40 vector as one row, read at a column: the vector's entry. -/
theorem row40_apply (b : S40.Idx → EReal) (j : S1x40.Idx) :
    shapeCast S1x40 b shapeCasts_S40_S1x40 j = b (idx_main_v51 j) :=
  shapeCast_apply b shapeCasts_S40_S1x40 j (idx_main_v51 j) (by
    rw [Shape.rowMajor_val_one, Shape.rowMajor_val_two]
    show (j 1).val = (j 0).val * 40 + (j 1).val
    have h0 : (j 0).val < 1 := (j 0).isLt
    omega)

/-! ## The layers, entry by entry -/

variable (x0 : S100000x128.Idx → EReal) (x1 : S128x128.Idx → EReal) (x2 : S128.Idx → EReal) (x3 : S128x40.Idx → EReal)
  (x4 : S40.Idx → EReal) (x5 x6 : IVec S1600000 32)

/-- The source-normalised features. -/
theorem scaled_first : rowScaled x0 (srcCol x5) = val_main_v15 (F := Ideal) x0 x5 := by
  funext i
  rw [val_main_v15_apply, val_main_v14_apply, val_main_v13_apply]
  unfold rowScaled srcCol
  rw [column_apply, degNorm_src (F := Ideal)]
  have e : colOf i = idx_main_v14 i := funext fun a => by
    match a with
    | ⟨0, _⟩ => rfl
    | ⟨1, _⟩ => rfl
  rw [e]
  rfl

/-- The hiddenFeats features, from equal messages. -/
theorem hidden_eq (a : S100000x128.Idx → EReal) (ha : a = val_main_v25 (F := Ideal) x0 x5 x6) :
    hiddenLayer a (dstCol x6) x1 (shapeCast S1x128 x2 shapeCasts_S128_S1x128) = val_main_v33 (F := Ideal) x0 x1 x2 x5 x6 := by
  subst ha
  funext i
  rw [val_main_v33_apply, val_main_v32_apply, val_main_v29_apply, val_main_v31_apply, val_main_v30_apply,
    val_main_call2_v0_apply, val_main_call2_cst_apply]
  unfold hiddenLayer dstCol
  rw [column_apply, row128_apply, degNorm_dst (F := Ideal)]
  have hsum : ∀ k : Fin 128,
      (val_main_v25 (F := Ideal) x0 x5 x6 (lhsAt i k) * val_main_v12 (F := Ideal) x6 (idx_main_v13 (colOf i))) * x1 (rhsAt i k)
        = val_main_v28 (F := Ideal) x0 x5 x6 (lidx_main_v29 i k) * x1 (ridx_main_v29 i k) := fun k => by
    rw [val_main_v28_apply, val_main_v27_apply, val_main_v26_apply]
    have el : lhsAt i k = lidx_main_v29 i k := funext fun a => by
      match a with
      | ⟨0, _⟩ => rfl
      | ⟨1, _⟩ => rfl
    have er : rhsAt i k = ridx_main_v29 i k := funext fun a => by
      match a with
      | ⟨0, _⟩ => rfl
      | ⟨1, _⟩ => rfl
    have en : idx_main_v13 (colOf i) = idx_main_v26 (idx_main_v27 (lidx_main_v29 i k)) := funext fun a => by
      match a with
      | ⟨0, _⟩ => rfl
    rw [el, er, en]
    rfl
  have hb : idx_main_v30 (biasAt i) = idx_main_v30 (idx_main_v31 i) := congrArg idx_main_v30 (funext fun a => by
    match a with
    | ⟨0, _⟩ => rfl
    | ⟨1, _⟩ => rfl)
  rw [Finset.sum_congr rfl (fun k _ => hsum k), hb]
  rfl

/-- The source-normalised hiddenFeats features, from equal hiddenFeats features. -/
theorem scaled_second (h : S100000x128.Idx → EReal) (hh : h = val_main_v33 (F := Ideal) x0 x1 x2 x5 x6) :
    rowScaled h (srcCol x5) = val_main_v36 (F := Ideal) x0 x1 x2 x5 x6 := by
  subst hh
  funext i
  rw [val_main_v36_apply, val_main_v35_apply, val_main_v34_apply]
  unfold rowScaled srcCol
  rw [column_apply, degNorm_src (F := Ideal)]
  have e : idx_main_v13 (colOf i) = idx_main_v34 (idx_main_v35 i) := funext fun a => by
    match a with
    | ⟨0, _⟩ => rfl
  rw [e]
  rfl

/-- The result, from equal messages. -/
theorem output_eq (a : S100000x128.Idx → EReal) (ha : a = val_main_v46 (F := Ideal) x0 x1 x2 x5 x6) :
    outputLayer a (dstCol x6) x3 (shapeCast S1x40 x4 shapeCasts_S40_S1x40) = val_main_v53 (F := Ideal) x0 x1 x2 x3 x4 x5 x6 := by
  subst ha
  funext i
  rw [val_main_v53_apply, val_main_v50_apply, val_main_v52_apply, val_main_v51_apply]
  unfold outputLayer dstCol
  rw [column_apply, row40_apply, degNorm_dst (F := Ideal)]
  have hsum : ∀ k : Fin 128,
      (val_main_v46 (F := Ideal) x0 x1 x2 x5 x6 (featAt i k) * val_main_v12 (F := Ideal) x6 (idx_main_v13 (normAt i))) * x3 (weightAt i k)
        = val_main_v49 (F := Ideal) x0 x1 x2 x5 x6 (lidx_main_v50 i k) * x3 (ridx_main_v50 i k) := fun k => by
    rw [val_main_v49_apply, val_main_v48_apply, val_main_v47_apply]
    have el : featAt i k = lidx_main_v50 i k := funext fun a => by
      match a with
      | ⟨0, _⟩ => rfl
      | ⟨1, _⟩ => rfl
    have er : weightAt i k = ridx_main_v50 i k := funext fun a => by
      match a with
      | ⟨0, _⟩ => rfl
      | ⟨1, _⟩ => rfl
    have en : idx_main_v13 (normAt i) = idx_main_v47 (idx_main_v48 (lidx_main_v50 i k)) := funext fun a => by
      match a with
      | ⟨0, _⟩ => rfl
    rw [el, er, en]
    rfl
  have hb : idx_main_v51 (classBiasAt i) = idx_main_v51 (idx_main_v52 i) := congrArg idx_main_v51 (funext fun a => by
    match a with
    | ⟨0, _⟩ => rfl
    | ⟨1, _⟩ => rfl)
  rw [Finset.sum_congr rfl (fun k _ => hsum k), hb]
  rfl

/-! ## The two programs' results -/

/-- Where every source index is a node index, the kernel program's result is the reference's. -/
theorem kernelOut_eq (hs : InRange x5) : kernelOut x0 x1 x2 x3 x4 x5 x6 = val_main_v53 (F := Ideal) x0 x1 x2 x3 x4 x5 x6 := by
  have m0 : messages0 x0 x5 x6 = val_main_v25 (F := Ideal) x0 x5 x6 := by
    unfold messages0 val_main_v25 val_main_v22
    rw [aggregate_first (F := Ideal) hs, scaled_first]
  have h1 : hiddenFeats x0 x1 x2 x5 x6 = val_main_v33 (F := Ideal) x0 x1 x2 x5 x6 := by
    unfold hiddenFeats
    exact hidden_eq x0 x1 x2 x5 x6 _ m0
  have m1 : messages1 x0 x1 x2 x5 x6 = val_main_v46 (F := Ideal) x0 x1 x2 x5 x6 := by
    unfold messages1 val_main_v46 val_main_v43
    rw [aggregate_second (F := Ideal) hs, scaled_second x0 x1 x2 x5 x6 _ h1]
  unfold kernelOut
  exact output_eq x0 x1 x2 x3 x4 x5 x6 _ m1

end Cert.Proof.Bridge

end
-- ==== Proof.lean ====
/-
  Two graph-convolution layers over 100000 nodes and 1600000 edges: out = L2 (A (relu (L1 (A x)))), where A
  scales each node's features by its out-degree to the power -1/2, gathers them along the edges' sources and
  adds them into the edges' destinations, and a layer L scales each row by the node's in-degree to the power
  -1/2, multiplies by the weights and adds the bias. The kernel program does the two row scalings and the two
  dense layers in four tiled regions of 20 blocks of 5000 rows, with the degrees, the gathers and the
  scatter-adds on the host between them; the reference does everything on the host. Over the extended reals
  the two compute the same function wherever every source index is a node index (0 ≤ src < 100000): there the
  kernel's gather, which fills the row of an out-of-range index with a fixed word where the reference's clamps
  the index, reads the same rows as the reference's. Each region's result is read as one whole-array function
  of the arrays it finds (the blocks tile the rows), the host stretches are read operation by operation, and
  the composed function is compared with the reference's stage by stage; the sums of a dense layer are the
  same 128 products on both sides, so no law beyond reading each operation at an index is needed, and the
  finiteness of the float inputs is never used.
-/
import proofs.«419107_j19997367730786_1_alg».proof.Defs
import proofs.«419107_j19997367730786_1_alg».proof.Proof.Gen.Kernel
import proofs.«419107_j19997367730786_1_alg».proof.Proof.Gen.Kernel.Skeleton
import proofs.«419107_j19997367730786_1_alg».proof.Proof.Gen.Kernel.Launch
import proofs.«419107_j19997367730786_1_alg».proof.Proof.Gen.Kernel.Points
import proofs.«419107_j19997367730786_1_alg».proof.Proof.Gen.Kernel.Frame
import proofs.«419107_j19997367730786_1_alg».proof.Proof.Gen.KernelIdeal
import proofs.«419107_j19997367730786_1_alg».proof.Proof.Gen.KernelIdeal.Skeleton
import proofs.«419107_j19997367730786_1_alg».proof.Proof.Gen.KernelIdeal.Launch
import proofs.«419107_j19997367730786_1_alg».proof.Proof.Gen.KernelIdeal.Points
import proofs.«419107_j19997367730786_1_alg».proof.Proof.Gen.KernelIdeal.Frame
import proofs.«419107_j19997367730786_1_alg».proof.Proof.Gen.ReferenceIdeal
import proofs.«419107_j19997367730786_1_alg».proof.Proof.Gen.ReferenceIdeal.Run
import proofs.«419107_j19997367730786_1_alg».proof.Proof.Gen.ReferenceIdeal.Read
import proofs.«419107_j19997367730786_1_alg».proof.Proof.Gen.Pre_finite_inputs
import proofs.«419107_j19997367730786_1_alg».proof.Proof.KernelRun
import proofs.«419107_j19997367730786_1_alg».proof.Proof.KernelValue
import proofs.«419107_j19997367730786_1_alg».proof.Proof.PreDecode
import proofs.«419107_j19997367730786_1_alg».proof.Proof.Bridge
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: it runs, and its run leaves the arguments alone. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments, with every source index a node index, both programs end with the
    same result: the kernel's composed function of its arguments, which is the reference's last stage. -/
theorem algebraic : Cert.algebraic_KernelIdeal_ReferenceIdeal := by
  intro m ρ m' ρ' hpre hagree
  refine ⟨fun c => Cert.KernelIdeal.KernelValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨((h c).1).trans (Cert.KernelIdeal.KernelValue.result_value m ρ c), (h c).2⟩)
      (Cert.KernelIdeal.RunValue.run_result (F := Ideal) m ρ)
  · refine (θ_run Cert.ReferenceIdeal.defs _ _).mono (fun r h c => ⟨((h c).1).trans ?_, (h c).2⟩)
      (Cert.ReferenceIdeal.Value.run (F := Ideal) m' ρ')
    obtain ⟨e0, e1, e2, e3, e4, e5, e6⟩ := hagree c
    rw [Cert.ReferenceIdeal.Read.val_main_v53_eq, e0, e1, e2, e3, e4, e5, e6]
    exact (Cert.Proof.Bridge.kernelOut_eq _ _ _ _ _ _ _ (Cert.Proof.Domain.inRange_of_pre _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
